-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S8192x1024, .f32⟩
  | .hbm, ⟨22, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.CellFrameBits.lean ====
/-
  The LSTM cell kernel as a pipeline over 32 row tiles: that it runs to the end and leaves its fifteen argument arrays
  as they were, and what it leaves in the two result arrays. Before the region the host joins the four input-weight
  matrices, the four recurrent-weight matrices and the four bias vectors side by side, narrows the two joined matrices,
  and lays the joined bias out as one row; none of this writes an argument. At row tile t the body reads rows
  256·t … 256·t+255 of x, h and c, the whole joined weights and bias, and stores a 256 × 1024 tile of the new hidden
  state and one of the new cell state, each covering its staging buffer whole: the tiles' contents are the two stored
  values of the body as functions of what it loaded.
-/
import proofs.«133312_j79645873537420_1_alg».proof.Proof.Gen.Kernel.Launch
import proofs.«133312_j79645873537420_1_alg».proof.Proof.Gen.Kernel.Skeleton
import proofs.«133312_j79645873537420_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core c's buffers hold when the region is entered: the launch contents after the six host operations. -/
abbrev entry (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- The program is its six host operations and then the region. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! No host operation writes an argument array: the region finds each as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## Row tiles -/

/-- Window w's block at row tile t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window's current staging buffer holds its block at every tile, whether the tile fetches it (x, h, c:
    every tile) or not (the joined weights and bias: the first tile only, the block index never moving). -/
theorem held_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after the run -/

/-- In a final state satisfying the pipeline's post the arguments are as launched: x, h and c are arrays of input
    windows, never written back; the twelve weight and bias arrays bypass the region. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).1 2).trans (((dats 0 c).arrAt_in 2 rfl _).trans ((hA c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c)⟩

/-- So a run to the pipeline's post is a run that leaves the arguments unchanged. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r hr c => kept_of_post m dats hA r hr c) h

/-! ## The body's accesses and what it stores -/

abbrev tileRect : Rect S256x1024 := Rect.unit (s := S256x1024) ![0, 0] S256x1024.size inb_S256x1024_S256x1024_0_0
abbrev weightRect : Rect S1024x4096 := Rect.unit (s := S1024x4096) ![0, 0] S1024x4096.size inb_S1024x4096_S1024x4096_0_0
abbrev biasRect : Rect S1x4096 := Rect.unit (s := S1x4096) ![0, 0] S1x4096.size inb_S1x4096_S1x4096_0_0

/-- The hidden-state tile the body stores, from the blocks of x, h, c, the joined weights and the bias row. -/
def hiddenTile (x h cc : Vec F S256x1024 .f32) (w u : Vec F S1024x4096 .bf16) (b : Vec F S1x4096 .f32) : Vec F S256x1024 .f32 :=
  View.canon [⟨tileRect, k0_pay3 (View.ld x tileRect) (View.ld h tileRect) (View.ld w weightRect) (View.ld u weightRect) (View.ld b biasRect) (View.ld cc tileRect)⟩]

/-- The cell-state tile the body stores. -/
def cellTile (x h cc : Vec F S256x1024 .f32) (w u : Vec F S1024x4096 .bf16) (b : Vec F S1x4096 .f32) : Vec F S256x1024 .f32 :=
  View.canon [⟨tileRect, k0_pay2 (View.ld x tileRect) (View.ld h tileRect) (View.ld w weightRect) (View.ld u weightRect) (View.ld b biasRect) (View.ld cc tileRect)⟩]

/-- One store through the whole-tile rectangle covers the staging buffer. -/
theorem tile_covered (p0 : Vec F S256x1024 .f32) (y : S256x1024.Idx) :
    ∃ pc ∈ ([⟨tileRect, p0⟩] : List (View.Piece (Elt F) S256x1024 .f32)), y ∈ pc.1.set :=
  View.cover_of_tiled [⟨tileRect, p0⟩] S256x1024.size (by rfl) y

/-! ## The body's triple -/

set_option maxHeartbeats 2000000 in
/-- The body on whole staging memrefs, the six inputs' at given contents and the two outputs' at anything, runs to a
    state holding the inputs' as they were and the outputs' at the hidden and cell tiles of the inputs'. -/
theorem body_triple (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1024x4096 .bf16) (h4 : a4.IsWhole)
    (a5 : Memref sig .tc .vmem S1024x4096 .bf16) (h5 : a5.IsWhole) (a6 : Memref sig .tc .vmem S1x4096 .f32) (h6 : a6.IsWhole)
    (a7 : Memref sig .tc .vmem S256x1024 .f32) (h7 : a7.IsWhole) (a8 : Memref sig .tc .vmem S256x1024 .f32) (h8 : a8.IsWhole)
    (x h cc : Vec F S256x1024 .f32) (w u : Vec F S1024x4096 .bf16) (b : Vec F S1x4096 .f32) (K : PUnit → sProp 𝕄) :
    iprop(owns (c : Thread nD τ) a1 fullShare x ∗ owns (c : Thread nD τ) a2 fullShare h ∗ owns (c : Thread nD τ) a3 fullShare cc
        ∗ owns (c : Thread nD τ) a4 fullShare w ∗ owns (c : Thread nD τ) a5 fullShare u ∗ owns (c : Thread nD τ) a6 fullShare b
        ∗ (∃ d, owns (c : Thread nD τ) a7 fullShare d) ∗ (∃ d, owns (c : Thread nD τ) a8 fullShare d)
        ∗ (iprop(owns (c : Thread nD τ) a1 fullShare x ∗ owns (c : Thread nD τ) a2 fullShare h ∗ owns (c : Thread nD τ) a3 fullShare cc
            ∗ owns (c : Thread nD τ) a4 fullShare w ∗ owns (c : Thread nD τ) a5 fullShare u ∗ owns (c : Thread nD τ) a6 fullShare b
            ∗ owns (c : Thread nD τ) a7 fullShare (hiddenTile x h cc w u b) ∗ owns (c : Thread nD τ) a8 fullShare (cellTile x h cc w u b)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_covered _)
  iexists _; isplitr
  swap; · iexact H8
  ipureintro
  exact View.read_writes_eq_canon _ _ _ (tile_covered _)

/-! ## The pipeline's proof data -/

/-- On core c: the arrays as the region finds them; after the body at tile t each input's buffer at its block, the
    hidden-state window's at the hidden tile and the cell-state window's at the cell tile of the input blocks; the
    invariant is the untouched rest; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenTile (blockAt m c 0 t) (blockAt m c 1 t) (blockAt m c 2 t) (blockAt m c 3 t) (blockAt m c 4 t) (blockAt m c 5 t)
    | ⟨7, _⟩ => cellTile (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = hiddenTile (blockAt m c 0 t) (blockAt m c 1 t) (blockAt m c 2 t) (blockAt m c 3 t) (blockAt m c 4 t) (blockAt m c 5 t) := by dsimp only [dats]
theorem after_7 (c : Dev nD) (t : Fin cfg0.N) : (dats m 0 c).after 7 t
    = cellTile (blockAt m c 0 t) (blockAt m c 1 t) (blockAt m c 2 t) (blockAt m c 3 t) (blockAt m c 4 t) (blockAt m c 5 t) := by dsimp only [dats]

theorem held_0 (c : Dev nD) (t : Fin cfg0.N) (d) : (dats m 0 c).before 0 t d = blockAt m c 0 t :=
  held_0_of m (dats m 0 c) (arrays_eq m c 0) (after_0 m c) t d
theorem held_1 (c : Dev nD) (t : Fin cfg0.N) (d) : (dats m 0 c).before 1 t d = blockAt m c 1 t :=
  held_1_of m (dats m 0 c) (arrays_eq m c 1) (after_1 m c) t d
theorem held_2 (c : Dev nD) (t : Fin cfg0.N) (d) : (dats m 0 c).before 2 t d = blockAt m c 2 t :=
  held_2_of m (dats m 0 c) (arrays_eq m c 2) (after_2 m c) t d
theorem held_3 (c : Dev nD) (t : Fin cfg0.N) (d) : (dats m 0 c).before 3 t d = blockAt m c 3 t :=
  held_3_of m (dats m 0 c) (arrays_eq m c 3) (after_3 m c) t d
theorem held_4 (c : Dev nD) (t : Fin cfg0.N) (d) : (dats m 0 c).before 4 t d = blockAt m c 4 t :=
  held_4_of m (dats m 0 c) (arrays_eq m c 4) (after_4 m c) t d
theorem held_5 (c : Dev nD) (t : Fin cfg0.N) (d) : (dats m 0 c).before 5 t d = blockAt m c 5 t :=
  held_5_of m (dats m 0 c) (arrays_eq m c 5) (after_5 m c) t d

/-! ## The body obligation -/

/-- What the body is called with at tile t, -/
def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' memrefs hold their blocks, so the triple applies; the invariant and what the
    core owes pass through unread. -/
theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [held_0, held_1, held_2, held_3, held_4, held_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact tile_sound m c t

/-! ## The run -/

set_option backward.isDefEq.respectTransparency.types false in
/-- Every weakly fair execution of the program terminates, each window's array at what the pipeline computes from the
    proof data and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := arrays_eq m) (hΦ := fun _ _ => rfl)

/-- The program runs to the end and leaves its fifteen argument arrays unchanged, at any float instance. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_kept_of m ρ (dats m) (arrays_eq m) (run_main m ρ)

end Cert.Kernel.CellFrame

end
-- ==== Proof.CellFrameIdeal.lean ====
/-
  The LSTM cell kernel as a pipeline over 32 row tiles: that it runs to the end and leaves its fifteen argument arrays
  as they were, and what it leaves in the two result arrays. Before the region the host joins the four input-weight
  matrices, the four recurrent-weight matrices and the four bias vectors side by side, narrows the two joined matrices,
  and lays the joined bias out as one row; none of this writes an argument. At row tile t the body reads rows
  256·t … 256·t+255 of x, h and c, the whole joined weights and bias, and stores a 256 × 1024 tile of the new hidden
  state and one of the new cell state, each covering its staging buffer whole: the tiles' contents are the two stored
  values of the body as functions of what it loaded.
-/
import proofs.«133312_j79645873537420_1_alg».proof.Proof.Gen.KernelIdeal.Launch
import proofs.«133312_j79645873537420_1_alg».proof.Proof.Gen.KernelIdeal.Skeleton
import proofs.«133312_j79645873537420_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core c's buffers hold when the region is entered: the launch contents after the six host operations. -/
abbrev entry (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- The program is its six host operations and then the region. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! No host operation writes an argument array: the region finds each as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_main_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## Row tiles -/

/-- Window w's block at row tile t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window's current staging buffer holds its block at every tile, whether the tile fetches it (x, h, c:
    every tile) or not (the joined weights and bias: the first tile only, the block index never moving). -/
theorem held_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after the run -/

/-- In a final state satisfying the pipeline's post the arguments are as launched: x, h and c are arrays of input
    windows, never written back; the twelve weight and bias arrays bypass the region. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).1 2).trans (((dats 0 c).arrAt_in 2 rfl _).trans ((hA c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c)⟩

/-- So a run to the pipeline's post is a run that leaves the arguments unchanged. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r hr c => kept_of_post m dats hA r hr c) h

/-! ## The body's accesses and what it stores -/

abbrev tileRect : Rect S256x1024 := Rect.unit (s := S256x1024) ![0, 0] S256x1024.size inb_S256x1024_S256x1024_0_0
abbrev weightRect : Rect S1024x4096 := Rect.unit (s := S1024x4096) ![0, 0] S1024x4096.size inb_S1024x4096_S1024x4096_0_0
abbrev biasRect : Rect S1x4096 := Rect.unit (s := S1x4096) ![0, 0] S1x4096.size inb_S1x4096_S1x4096_0_0

/-- The hidden-state tile the body stores, from the blocks of x, h, c, the joined weights and the bias row. -/
def hiddenTile (x h cc : Vec F S256x1024 .f32) (w u : Vec F S1024x4096 .bf16) (b : Vec F S1x4096 .f32) : Vec F S256x1024 .f32 :=
  View.canon [⟨tileRect, k0_pay3 (View.ld x tileRect) (View.ld h tileRect) (View.ld w weightRect) (View.ld u weightRect) (View.ld b biasRect) (View.ld cc tileRect)⟩]

/-- The cell-state tile the body stores. -/
def cellTile (x h cc : Vec F S256x1024 .f32) (w u : Vec F S1024x4096 .bf16) (b : Vec F S1x4096 .f32) : Vec F S256x1024 .f32 :=
  View.canon [⟨tileRect, k0_pay2 (View.ld x tileRect) (View.ld h tileRect) (View.ld w weightRect) (View.ld u weightRect) (View.ld b biasRect) (View.ld cc tileRect)⟩]

/-- One store through the whole-tile rectangle covers the staging buffer. -/
theorem tile_covered (p0 : Vec F S256x1024 .f32) (y : S256x1024.Idx) :
    ∃ pc ∈ ([⟨tileRect, p0⟩] : List (View.Piece (Elt F) S256x1024 .f32)), y ∈ pc.1.set :=
  View.cover_of_tiled [⟨tileRect, p0⟩] S256x1024.size (by rfl) y

/-! ## The body's triple -/

set_option maxHeartbeats 2000000 in
/-- The body on whole staging memrefs, the six inputs' at given contents and the two outputs' at anything, runs to a
    state holding the inputs' as they were and the outputs' at the hidden and cell tiles of the inputs'. -/
theorem body_triple (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1024x4096 .bf16) (h4 : a4.IsWhole)
    (a5 : Memref sig .tc .vmem S1024x4096 .bf16) (h5 : a5.IsWhole) (a6 : Memref sig .tc .vmem S1x4096 .f32) (h6 : a6.IsWhole)
    (a7 : Memref sig .tc .vmem S256x1024 .f32) (h7 : a7.IsWhole) (a8 : Memref sig .tc .vmem S256x1024 .f32) (h8 : a8.IsWhole)
    (x h cc : Vec F S256x1024 .f32) (w u : Vec F S1024x4096 .bf16) (b : Vec F S1x4096 .f32) (K : PUnit → sProp 𝕄) :
    iprop(owns (c : Thread nD τ) a1 fullShare x ∗ owns (c : Thread nD τ) a2 fullShare h ∗ owns (c : Thread nD τ) a3 fullShare cc
        ∗ owns (c : Thread nD τ) a4 fullShare w ∗ owns (c : Thread nD τ) a5 fullShare u ∗ owns (c : Thread nD τ) a6 fullShare b
        ∗ (∃ d, owns (c : Thread nD τ) a7 fullShare d) ∗ (∃ d, owns (c : Thread nD τ) a8 fullShare d)
        ∗ (iprop(owns (c : Thread nD τ) a1 fullShare x ∗ owns (c : Thread nD τ) a2 fullShare h ∗ owns (c : Thread nD τ) a3 fullShare cc
            ∗ owns (c : Thread nD τ) a4 fullShare w ∗ owns (c : Thread nD τ) a5 fullShare u ∗ owns (c : Thread nD τ) a6 fullShare b
            ∗ owns (c : Thread nD τ) a7 fullShare (hiddenTile x h cc w u b) ∗ owns (c : Thread nD τ) a8 fullShare (cellTile x h cc w u b)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_covered _)
  iexists _; isplitr
  swap; · iexact H8
  ipureintro
  exact View.read_writes_eq_canon _ _ _ (tile_covered _)

/-! ## The pipeline's proof data -/

/-- On core c: the arrays as the region finds them; after the body at tile t each input's buffer at its block, the
    hidden-state window's at the hidden tile and the cell-state window's at the cell tile of the input blocks; the
    invariant is the untouched rest; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenTile (blockAt m c 0 t) (blockAt m c 1 t) (blockAt m c 2 t) (blockAt m c 3 t) (blockAt m c 4 t) (blockAt m c 5 t)
    | ⟨7, _⟩ => cellTile (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = hiddenTile (blockAt m c 0 t) (blockAt m c 1 t) (blockAt m c 2 t) (blockAt m c 3 t) (blockAt m c 4 t) (blockAt m c 5 t) := by dsimp only [dats]
theorem after_7 (c : Dev nD) (t : Fin cfg0.N) : (dats m 0 c).after 7 t
    = cellTile (blockAt m c 0 t) (blockAt m c 1 t) (blockAt m c 2 t) (blockAt m c 3 t) (blockAt m c 4 t) (blockAt m c 5 t) := by dsimp only [dats]

theorem held_0 (c : Dev nD) (t : Fin cfg0.N) (d) : (dats m 0 c).before 0 t d = blockAt m c 0 t :=
  held_0_of m (dats m 0 c) (arrays_eq m c 0) (after_0 m c) t d
theorem held_1 (c : Dev nD) (t : Fin cfg0.N) (d) : (dats m 0 c).before 1 t d = blockAt m c 1 t :=
  held_1_of m (dats m 0 c) (arrays_eq m c 1) (after_1 m c) t d
theorem held_2 (c : Dev nD) (t : Fin cfg0.N) (d) : (dats m 0 c).before 2 t d = blockAt m c 2 t :=
  held_2_of m (dats m 0 c) (arrays_eq m c 2) (after_2 m c) t d
theorem held_3 (c : Dev nD) (t : Fin cfg0.N) (d) : (dats m 0 c).before 3 t d = blockAt m c 3 t :=
  held_3_of m (dats m 0 c) (arrays_eq m c 3) (after_3 m c) t d
theorem held_4 (c : Dev nD) (t : Fin cfg0.N) (d) : (dats m 0 c).before 4 t d = blockAt m c 4 t :=
  held_4_of m (dats m 0 c) (arrays_eq m c 4) (after_4 m c) t d
theorem held_5 (c : Dev nD) (t : Fin cfg0.N) (d) : (dats m 0 c).before 5 t d = blockAt m c 5 t :=
  held_5_of m (dats m 0 c) (arrays_eq m c 5) (after_5 m c) t d

/-! ## The body obligation -/

/-- What the body is called with at tile t, -/
def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' memrefs hold their blocks, so the triple applies; the invariant and what the
    core owes pass through unread. -/
theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [held_0, held_1, held_2, held_3, held_4, held_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact tile_sound m c t

/-! ## The run -/

set_option backward.isDefEq.respectTransparency.types false in
/-- Every weakly fair execution of the program terminates, each window's array at what the pipeline computes from the
    proof data and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := arrays_eq m) (hΦ := fun _ _ => rfl)

/-- The program runs to the end and leaves its fifteen argument arrays unchanged, at any float instance. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_kept_of m ρ (dats m) (arrays_eq m) (run_main m ρ)

end Cert.KernelIdeal.CellFrame

end
-- ==== Proof.LibSpelledLogistic.lean ====
/-
  The logistic function spelled out on the extended reals. A program that writes σ(z) as 1 / (1 + e^(−z)) with the
  float literal 1.0 for both ones computes the logistic function of z at every extended real, the infinities included:
  the literal denotes the number one, and the logistic function is by definition that quotient.
-/
import Idealize.ShloMosaic.PureOps.Ideal

noncomputable section

namespace Cert.LibSpelledLogistic

open Idealize.ShloMosaic

/-- The float word of 1.0 denotes the real number one. -/
theorem word_one : Ideal.ofBits .f32 0x3F800000#32 = 1 := by
  simp [Ideal.ofBits, Ideal.ieee, -EReal.coe_mul]; norm_num

/-- The quotient 1 / (1 + e^(−z)) spelled with the word of 1.0 twice is the logistic function of z. -/
theorem spelled_logistic (z : EReal) :
    Ideal.div (Ideal.ofBits .f32 0x3F800000#32) (Ideal.ofBits .f32 0x3F800000#32 + Ideal.exp (-z)) = Ideal.logistic z := by
  rw [word_one]; rfl

end Cert.LibSpelledLogistic

end
-- ==== Proof.CellSpec.lean ====
/-
  One step of an LSTM cell, element by element over the extended reals. For batch row r and hidden unit q, with the
  four gates' weights laid side by side in a 1024 × 4096 matrix (input, forget, output, candidate: gate g owns columns
  1024·g … 1024·g + 1023) and likewise the biases,
      z(n)  = Σ_k x(r,k)·W(k,n) + Σ_k h(r,k)·U(k,n) + b(n)            the pre-activation of column n,
      c'    = σ(z(1024 + q))·c(r,q) + σ(z(q))·tanh(z(3072 + q))         the new cell state,
      h'    = σ(z(2048 + q))·tanh(c')                                    the new hidden state,
  σ the logistic function 1 / (1 + e^(−z)). Nothing here needs the entries to be finite: the two programs this is set
  beside build these very expressions, in this order, and differ only in how they lay the data out.
-/
import Idealize.ShloMosaic.PureOps.Ideal
import Idealize.ShloMosaic.Lib.ValueIdx
import proofs.«133312_j79645873537420_1_alg».proof.Proof.LibSpelledLogistic

noncomputable section

namespace Cert.CellSpec

open Idealize.ShloMosaic Idealize.ShloMosaic.ValueIdx

/-- Column q of gate g in the side-by-side layout. -/
def gateCol (g : Fin 4) (q : Fin 1024) : Fin 4096 := ⟨1024 * g.val + q.val, by have := g.isLt; have := q.isLt; omega⟩

theorem gateCol_val (g : Fin 4) (q : Fin 1024) : (gateCol g q).val = 1024 * g.val + q.val := rfl

/-! The four gates' columns as numbers. -/
theorem inputCol_val (q : Fin 1024) : (gateCol 0 q).val = 0 + q.val := by show 1024 * 0 + q.val = _; omega
theorem forgetCol_val (q : Fin 1024) : (gateCol 1 q).val = 1024 + q.val := by show 1024 * 1 + q.val = _; omega
theorem outputCol_val (q : Fin 1024) : (gateCol 2 q).val = 2048 + q.val := by show 1024 * 2 + q.val = _; omega
theorem candidateCol_val (q : Fin 1024) : (gateCol 3 q).val = 3072 + q.val := by show 1024 * 3 + q.val = _; omega

/-- The pre-activation of column n for one batch row: xr and hr are that row of x and of h. -/
def preAct (xr hr : Fin 1024 → EReal) (W U : (⟨2, ![1024, 4096]⟩ : Shape).Idx → EReal) (bias : Fin 4096 → EReal)
    (n : Fin 4096) : EReal :=
  (∑ k : Fin 1024, xr k * W (ix2 k n)) + (∑ k : Fin 1024, hr k * U (ix2 k n)) + bias n

/-- The new cell state of one row at hidden unit q; cp is the old cell state there. -/
def cellAt (xr hr : Fin 1024 → EReal) (cp : EReal) (W U : (⟨2, ![1024, 4096]⟩ : Shape).Idx → EReal)
    (bias : Fin 4096 → EReal) (q : Fin 1024) : EReal :=
  Ideal.logistic (preAct xr hr W U bias (gateCol 1 q)) * cp
    + Ideal.logistic (preAct xr hr W U bias (gateCol 0 q)) * Ideal.tanh (preAct xr hr W U bias (gateCol 3 q))

/-- The new hidden state of one row at hidden unit q. -/
def hiddenAt (xr hr : Fin 1024 → EReal) (cp : EReal) (W U : (⟨2, ![1024, 4096]⟩ : Shape).Idx → EReal)
    (bias : Fin 4096 → EReal) (q : Fin 1024) : EReal :=
  Ideal.logistic (preAct xr hr W U bias (gateCol 2 q)) * Ideal.tanh (cellAt xr hr cp W U bias q)

/-- The new cell state of the whole batch. -/
def cellArr (X H C : (⟨2, ![8192, 1024]⟩ : Shape).Idx → EReal) (W U : (⟨2, ![1024, 4096]⟩ : Shape).Idx → EReal)
    (b : (⟨1, ![4096]⟩ : Shape).Idx → EReal) : (⟨2, ![8192, 1024]⟩ : Shape).Idx → EReal := fun i =>
  cellAt (fun k => X (ix2 (i 0) k)) (fun k => H (ix2 (i 0) k)) (C i) W U (fun n => b (ix1 n)) (i 1)

/-- The new hidden state of the whole batch. -/
def hiddenArr (X H C : (⟨2, ![8192, 1024]⟩ : Shape).Idx → EReal) (W U : (⟨2, ![1024, 4096]⟩ : Shape).Idx → EReal)
    (b : (⟨1, ![4096]⟩ : Shape).Idx → EReal) : (⟨2, ![8192, 1024]⟩ : Shape).Idx → EReal := fun i =>
  hiddenAt (fun k => X (ix2 (i 0) k)) (fun k => H (ix2 (i 0) k)) (C i) W U (fun n => b (ix1 n)) (i 1)

theorem cellArr_apply (X H C : (⟨2, ![8192, 1024]⟩ : Shape).Idx → EReal) (W U : (⟨2, ![1024, 4096]⟩ : Shape).Idx → EReal)
    (b : (⟨1, ![4096]⟩ : Shape).Idx → EReal) (r : Fin 8192) (q : Fin 1024) :
    cellArr X H C W U b (ix2 r q)
      = cellAt (fun k => X (ix2 r k)) (fun k => H (ix2 r k)) (C (ix2 r q)) W U (fun n => b (ix1 n)) q := rfl

theorem hiddenArr_apply (X H C : (⟨2, ![8192, 1024]⟩ : Shape).Idx → EReal) (W U : (⟨2, ![1024, 4096]⟩ : Shape).Idx → EReal)
    (b : (⟨1, ![4096]⟩ : Shape).Idx → EReal) (r : Fin 8192) (q : Fin 1024) :
    hiddenArr X H C W U b (ix2 r q)
      = hiddenAt (fun k => X (ix2 r k)) (fun k => H (ix2 r k)) (C (ix2 r q)) W U (fun n => b (ix1 n)) q := rfl

end Cert.CellSpec

end
-- ==== Proof.TileValue.lean ====
/-
  What the kernel's body stores for one tile of 256 batch rows, read at one element, over the extended reals. The body
  multiplies the tile of x and the tile of h by the joined weight matrices (each product into a zero accumulator, so
  a plain sum over the 1024 contracted entries; the narrowing of the operands changes nothing here), adds the two
  products and then the bias row laid along every row, cuts the 256 × 4096 result into the four gates' 256 × 1024
  column blocks, and combines them pointwise. So entry (p, q) of the stored cell-state tile is the specification's
  new cell state of row p of the tile at hidden unit q, and likewise for the hidden state.
-/
import proofs.«133312_j79645873537420_1_alg».proof.Proof.Gen.KernelIdeal.Skeleton
import proofs.«133312_j79645873537420_1_alg».proof.Proof.CellSpec
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

namespace Cert.KernelIdeal.TileValue

open Cert.KernelIdeal Cert.KernelIdeal.Gen Cert.CellSpec
open Idealize.ShloMosaic Idealize.ShloMosaic.ValueIdx

/-- A 256 × 1024 tile times a 1024 × 4096 matrix, accumulated into zero, at entry (p, n): the sum over the
    contracted coordinate of the products of the entries. -/
theorem product_apply {φ₁ φ₂ : FTy} (l : FVec Ideal S256x1024 φ₁) (r : FVec Ideal S1024x4096 φ₂) (p : Fin 256) (n : Fin 4096) :
    matmul dot_S256x1024_S1024x4096_S256x4096_1_0_0_1_n_n none l r (constant S256x4096 .f32 0x00000000#32) (ix2 p n)
      = ∑ k : Fin 1024, l (ix2 p k) * r (ix2 k n) := by
  rw [matmul_zero_eq_dotGeneral]
  exact StackMember.dotGeneral_plain_apply (m := 256) (n := 4096) none l r p n

/-- The bias row laid along the tile's 256 rows, at entry (p, n): the row's entry n. -/
theorem bias_rows_apply (b : FVec Ideal S1x4096 .f32) (p : Fin 256) (n : Fin 4096) :
    broadcastTo S256x4096 b broadcasts_S1x4096_S256x4096 (ix2 p n) = b (ix2 (0 : Fin 1) n) :=
  broadcastTo_apply b broadcasts_S1x4096_S256x4096 (ix2 p n) (ix2 (0 : Fin 1) n) (fun a => match a with
    | ⟨0, _⟩ => by show (0 : ℕ) = if (1 : ℕ) = 1 then 0 else _; rw [if_pos rfl]
    | ⟨1, _⟩ => by show n.val = if (4096 : ℕ) = 1 then 0 else n.val; rw [if_neg (by decide)])

/-- The pre-activation tile at entry (p, n). -/
theorem preact_tile_apply (x h : Vec Ideal S256x1024 .f32) (w u : Vec Ideal S1024x4096 .bf16) (b : Vec Ideal S1x4096 .f32)
    (p : Fin 256) (n : Fin 4096) :
    k0_pay1 x h w u b (ix2 p n)
      = preAct (fun k => x (ix2 p k)) (fun k => h (ix2 p k)) w u (fun n => b (ix2 (0 : Fin 1) n)) n := by
  unfold k0_pay1 preAct
  rw [shapeCast_self, shapeCast_self, shapeCast_self]
  refine (addf_apply _ _ _).trans ?_
  refine congrArg₂ (· + ·) ((addf_apply _ _ _).trans ?_) (bias_rows_apply b p n)
  exact congrArg₂ (· + ·) (product_apply _ w p n) (product_apply _ u p n)

/-- Gate g's column block of a 256 × 4096 tile, at entry (p, q): the tile at column 1024·g + q. -/
theorem inputBlock_apply (v : FVec Ideal S256x4096 .f32) (p : Fin 256) (q : Fin 1024) :
    extractStridedSlice S256x1024 ![0, 0] v slices_S256x4096_o0_0_S256x1024 (ix2 p q) = v (ix2 p (gateCol 0 q)) :=
  extractStridedSlice_apply ![0, 0] v slices_S256x4096_o0_0_S256x1024 (ix2 p q) (ix2 p (gateCol 0 q)) (fun a => match a with
    | ⟨0, _⟩ => by show p.val = 0 + p.val; omega
    | ⟨1, _⟩ => inputCol_val q)
theorem forgetBlock_apply (v : FVec Ideal S256x4096 .f32) (p : Fin 256) (q : Fin 1024) :
    extractStridedSlice S256x1024 ![0, 1024] v slices_S256x4096_o0_1024_S256x1024 (ix2 p q) = v (ix2 p (gateCol 1 q)) :=
  extractStridedSlice_apply ![0, 1024] v slices_S256x4096_o0_1024_S256x1024 (ix2 p q) (ix2 p (gateCol 1 q)) (fun a => match a with
    | ⟨0, _⟩ => by show p.val = 0 + p.val; omega
    | ⟨1, _⟩ => forgetCol_val q)
theorem outputBlock_apply (v : FVec Ideal S256x4096 .f32) (p : Fin 256) (q : Fin 1024) :
    extractStridedSlice S256x1024 ![0, 2048] v slices_S256x4096_o0_2048_S256x1024 (ix2 p q) = v (ix2 p (gateCol 2 q)) :=
  extractStridedSlice_apply ![0, 2048] v slices_S256x4096_o0_2048_S256x1024 (ix2 p q) (ix2 p (gateCol 2 q)) (fun a => match a with
    | ⟨0, _⟩ => by show p.val = 0 + p.val; omega
    | ⟨1, _⟩ => outputCol_val q)
theorem candidateBlock_apply (v : FVec Ideal S256x4096 .f32) (p : Fin 256) (q : Fin 1024) :
    extractStridedSlice S256x1024 ![0, 3072] v slices_S256x4096_o0_3072_S256x1024 (ix2 p q) = v (ix2 p (gateCol 3 q)) :=
  extractStridedSlice_apply ![0, 3072] v slices_S256x4096_o0_3072_S256x1024 (ix2 p q) (ix2 p (gateCol 3 q)) (fun a => match a with
    | ⟨0, _⟩ => by show p.val = 0 + p.val; omega
    | ⟨1, _⟩ => candidateCol_val q)

/-- The stored cell-state tile at entry (p, q). -/
theorem cell_tile_apply (x h : Vec Ideal S256x1024 .f32) (w u : Vec Ideal S1024x4096 .bf16) (b : Vec Ideal S1x4096 .f32)
    (cp : Vec Ideal S256x1024 .f32) (p : Fin 256) (q : Fin 1024) :
    k0_pay2 x h w u b cp (ix2 p q)
      = cellAt (fun k => x (ix2 p k)) (fun k => h (ix2 p k)) (cp (ix2 p q)) w u (fun n => b (ix2 (0 : Fin 1) n)) q := by
  unfold k0_pay2 cellAt
  show Ideal.logistic (extractStridedSlice S256x1024 ![0, 1024] (k0_pay1 x h w u b) slices_S256x4096_o0_1024_S256x1024 (ix2 p q)) * cp (ix2 p q)
      + Ideal.logistic (extractStridedSlice S256x1024 ![0, 0] (k0_pay1 x h w u b) slices_S256x4096_o0_0_S256x1024 (ix2 p q))
        * Ideal.tanh (extractStridedSlice S256x1024 ![0, 3072] (k0_pay1 x h w u b) slices_S256x4096_o0_3072_S256x1024 (ix2 p q)) = _
  rw [forgetBlock_apply, inputBlock_apply, candidateBlock_apply, preact_tile_apply, preact_tile_apply, preact_tile_apply]

/-- The stored hidden-state tile at entry (p, q). -/
theorem hidden_tile_apply (x h : Vec Ideal S256x1024 .f32) (w u : Vec Ideal S1024x4096 .bf16) (b : Vec Ideal S1x4096 .f32)
    (cp : Vec Ideal S256x1024 .f32) (p : Fin 256) (q : Fin 1024) :
    k0_pay3 x h w u b cp (ix2 p q)
      = hiddenAt (fun k => x (ix2 p k)) (fun k => h (ix2 p k)) (cp (ix2 p q)) w u (fun n => b (ix2 (0 : Fin 1) n)) q := by
  unfold k0_pay3 hiddenAt
  show Ideal.logistic (extractStridedSlice S256x1024 ![0, 2048] (k0_pay1 x h w u b) slices_S256x4096_o0_2048_S256x1024 (ix2 p q))
      * Ideal.tanh (k0_pay2 x h w u b cp (ix2 p q)) = _
  rw [outputBlock_apply, preact_tile_apply, cell_tile_apply]

end Cert.KernelIdeal.TileValue

end
-- ==== Proof.CellArrays.lean ====
/-
  From tiles to arrays, for the idealized kernel. Tile t of the hidden-state and cell-state windows is written back to
  rows 256·t … 256·t + 255 of its result array, the 32 tiles covering the 8192 rows. The blocks of x, h and c that tile t
  reads are the same rows of those arrays; the joined weights and the bias row are read whole at every tile, and the
  region finds them as the host left them: the four weight matrices side by side (the narrowing is the identity on
  extended reals) and the four biases end to end, laid out as one row. So each result array ends holding the
  specification's new hidden state, resp. new cell state, of the argument arrays, element by element.
-/
import proofs.«133312_j79645873537420_1_alg».proof.Proof.CellFrameIdeal
import proofs.«133312_j79645873537420_1_alg».proof.Proof.TileValue
import proofs.«133312_j79645873537420_1_alg».proof.Proof.CellSpec
import Idealize.ShloMosaic.Lib.Pipeline.Value
import Idealize.ShloMosaic.Lib.StableHlo.Run
import Idealize.ShloMosaic.Lib.Tactic

set_option maxRecDepth 16384

noncomputable section

namespace Cert.KernelIdeal.CellArrays

open Cert.KernelIdeal Cert.KernelIdeal.Gen Cert.KernelIdeal.CellFrame Cert.KernelIdeal.TileValue Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Where each window's block sits at tile t -/

/-- The printed index maps over the grid: x, h, c and the two results move down one block of rows per tile and
    stay in column block 0; the joined weights and the bias row stay at block (0, 0). -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of tile t is batch row 256·t + p. -/
def rowOf (t : Fin cfg0.N) (p : Fin 256) : Fin 8192 :=
  ⟨256 * t.val + p.val, by have := t.isLt; have := p.isLt; have hN : cfg0.N = 32 := N_0; omega⟩

/-! The blocks of x, h and c at tile t are rows 256·t … of the argument arrays. -/
theorem rows_0 (c : Dev nD) (t : Fin cfg0.N) (p : Fin 256) (k : Fin 1024) :
    (blockAt m c 0 t : Vec Ideal S256x1024 .f32) (ix2 p k)
      = (m ((c.tc : Thread nD τ).loc main_arg0) : S8192x1024.Idx → EReal) (ix2 (rowOf t p) k) := by
  obtain ⟨e00, e01, e10, e11, e20, e21, -⟩ := tile_index t
  unfold blockAt
  rw [View.read_apply]
  show entry m c main_arg0 _ = _
  rw [entry_main_arg0]
  congr 1
  funext a
  apply Fin.ext
  match a with
  | ⟨0, _⟩ => show win0_0.index t (0 : Fin 2) * 256 + 1 * p.val = 256 * t.val + p.val; rw [e00]; omega
  | ⟨1, _⟩ => show win0_0.index t (1 : Fin 2) * 1024 + 1 * k.val = k.val; rw [e01]; omega
theorem rows_1 (c : Dev nD) (t : Fin cfg0.N) (p : Fin 256) (k : Fin 1024) :
    (blockAt m c 1 t : Vec Ideal S256x1024 .f32) (ix2 p k)
      = (m ((c.tc : Thread nD τ).loc main_arg1) : S8192x1024.Idx → EReal) (ix2 (rowOf t p) k) := by
  obtain ⟨e00, e01, e10, e11, e20, e21, -⟩ := tile_index t
  unfold blockAt
  rw [View.read_apply]
  show entry m c main_arg1 _ = _
  rw [entry_main_arg1]
  congr 1
  funext a
  apply Fin.ext
  match a with
  | ⟨0, _⟩ => show win0_1.index t (0 : Fin 2) * 256 + 1 * p.val = 256 * t.val + p.val; rw [e10]; omega
  | ⟨1, _⟩ => show win0_1.index t (1 : Fin 2) * 1024 + 1 * k.val = k.val; rw [e11]; omega
theorem rows_2 (c : Dev nD) (t : Fin cfg0.N) (p : Fin 256) (k : Fin 1024) :
    (blockAt m c 2 t : Vec Ideal S256x1024 .f32) (ix2 p k)
      = (m ((c.tc : Thread nD τ).loc main_arg2) : S8192x1024.Idx → EReal) (ix2 (rowOf t p) k) := by
  obtain ⟨e00, e01, e10, e11, e20, e21, -⟩ := tile_index t
  unfold blockAt
  rw [View.read_apply]
  show entry m c main_arg2 _ = _
  rw [entry_main_arg2]
  congr 1
  funext a
  apply Fin.ext
  match a with
  | ⟨0, _⟩ => show win0_2.index t (0 : Fin 2) * 256 + 1 * p.val = 256 * t.val + p.val; rw [e20]; omega
  | ⟨1, _⟩ => show win0_2.index t (1 : Fin 2) * 1024 + 1 * k.val = k.val; rw [e21]; omega

/-! The joined weights and the bias row are read whole at every tile. -/
theorem whole_3 (c : Dev nD) (t : Fin cfg0.N) :
    (blockAt m c 3 t : Vec Ideal S1024x4096 .bf16) = (entry m c main_v1 : S1024x4096.Idx → EReal) := by
  obtain ⟨-, -, -, -, -, -, e30, e31, e40, e41, e50, e51, -⟩ := tile_index t
  funext y
  unfold blockAt
  rw [View.read_apply]
  show entry m c main_v1 _ = entry m c main_v1 y
  congr 1
  funext a
  apply Fin.ext
  match a with
  | ⟨0, _⟩ => show win0_3.index t (0 : Fin 2) * 1024 + 1 * (y 0).val = (y 0).val; rw [e30]; omega
  | ⟨1, _⟩ => show win0_3.index t (1 : Fin 2) * 4096 + 1 * (y 1).val = (y 1).val; rw [e31]; omega
theorem whole_4 (c : Dev nD) (t : Fin cfg0.N) :
    (blockAt m c 4 t : Vec Ideal S1024x4096 .bf16) = (entry m c main_v3 : S1024x4096.Idx → EReal) := by
  obtain ⟨-, -, -, -, -, -, e30, e31, e40, e41, e50, e51, -⟩ := tile_index t
  funext y
  unfold blockAt
  rw [View.read_apply]
  show entry m c main_v3 _ = entry m c main_v3 y
  congr 1
  funext a
  apply Fin.ext
  match a with
  | ⟨0, _⟩ => show win0_4.index t (0 : Fin 2) * 1024 + 1 * (y 0).val = (y 0).val; rw [e40]; omega
  | ⟨1, _⟩ => show win0_4.index t (1 : Fin 2) * 4096 + 1 * (y 1).val = (y 1).val; rw [e41]; omega
theorem whole_5 (c : Dev nD) (t : Fin cfg0.N) :
    (blockAt m c 5 t : Vec Ideal S1x4096 .f32) = (entry m c main_v5 : S1x4096.Idx → EReal) := by
  obtain ⟨-, -, -, -, -, -, e30, e31, e40, e41, e50, e51, -⟩ := tile_index t
  funext y
  unfold blockAt
  rw [View.read_apply]
  show entry m c main_v5 _ = entry m c main_v5 y
  congr 1
  funext a
  apply Fin.ext
  match a with
  | ⟨0, _⟩ => show win0_5.index t (0 : Fin 2) * 1 + 1 * (y 0).val = (y 0).val; rw [e50]; omega
  | ⟨1, _⟩ => show win0_5.index t (1 : Fin 2) * 4096 + 1 * (y 1).val = (y 1).val; rw [e51]; omega

/-! ## The joined weights and bias as the region finds them -/

/-- The four input-weight matrices side by side. -/
def joinedW (c : Dev nD) : S1024x4096.Idx → EReal :=
  concatenate S1024x4096 1 [⟨S1024x1024, m ((c.tc : Thread nD τ).loc main_arg3)⟩, ⟨S1024x1024, m ((c.tc : Thread nD τ).loc main_arg6)⟩, ⟨S1024x1024, m ((c.tc : Thread nD τ).loc main_arg9)⟩, ⟨S1024x1024, m ((c.tc : Thread nD τ).loc main_arg12)⟩] concatenates_S1024x1024_S1024x1024_S1024x1024_S1024x1024_S1024x4096_d1

/-- The four recurrent-weight matrices side by side. -/
def joinedU (c : Dev nD) : S1024x4096.Idx → EReal :=
  concatenate S1024x4096 1 [⟨S1024x1024, m ((c.tc : Thread nD τ).loc main_arg4)⟩, ⟨S1024x1024, m ((c.tc : Thread nD τ).loc main_arg7)⟩, ⟨S1024x1024, m ((c.tc : Thread nD τ).loc main_arg10)⟩, ⟨S1024x1024, m ((c.tc : Thread nD τ).loc main_arg13)⟩] concatenates_S1024x1024_S1024x1024_S1024x1024_S1024x1024_S1024x4096_d1

/-- The four bias vectors end to end. -/
def joinedB (c : Dev nD) : S4096.Idx → EReal :=
  concatenate S4096 0 [⟨S1024, m ((c.tc : Thread nD τ).loc main_arg5)⟩, ⟨S1024, m ((c.tc : Thread nD τ).loc main_arg8)⟩, ⟨S1024, m ((c.tc : Thread nD τ).loc main_arg11)⟩, ⟨S1024, m ((c.tc : Thread nD τ).loc main_arg14)⟩] concatenates_S1024_S1024_S1024_S1024_S4096_d0

theorem entry_W (c : Dev nD) : (entry m c main_v1 : S1024x4096.Idx → EReal) = joinedW m c := by
  dsimp only [entry, hostOps0]; after_results; rfl

theorem entry_U (c : Dev nD) : (entry m c main_v3 : S1024x4096.Idx → EReal) = joinedU m c := by
  dsimp only [entry, hostOps0]; after_results; rfl

/-- The bias row the region finds is the joined bias vector laid out as one row. -/
theorem entry_b (c : Dev nD) (n : Fin 4096) : (entry m c main_v5 : S1x4096.Idx → EReal) (ix2 (0 : Fin 1) n) = joinedB m c (ix1 n) := by
  have e : (entry m c main_v5 : S1x4096.Idx → EReal) = shapeCast S1x4096 (joinedB m c) shapeCasts_S4096_S1x4096 := by
    dsimp only [entry, hostOps0]; after_results; rfl
  rw [e]
  refine shapeCast_apply (joinedB m c) shapeCasts_S4096_S1x4096 (ix2 (0 : Fin 1) n) (ix1 n) ?_
  rw [Shape.rowMajor_val_one, Shape.rowMajor_val_two]
  show n.val = 0 * 4096 + n.val
  omega

/-! ## The two result arrays -/

/-- What the hidden-state array ends holding. -/
def hiddenOf (c : Dev nD) : S8192x1024.Idx → EReal :=
  hiddenArr (m ((c.tc : Thread nD τ).loc main_arg0)) (m ((c.tc : Thread nD τ).loc main_arg1)) (m ((c.tc : Thread nD τ).loc main_arg2))
    (joinedW m c) (joinedU m c) (joinedB m c)

/-- What the cell-state array ends holding. -/
def cellOf (c : Dev nD) : S8192x1024.Idx → EReal :=
  cellArr (m ((c.tc : Thread nD τ).loc main_arg0)) (m ((c.tc : Thread nD τ).loc main_arg1)) (m ((c.tc : Thread nD τ).loc main_arg2))
    (joinedW m c) (joinedU m c) (joinedB m c)

/-! A stored tile at an element, when the tile's blocks are rows 256·t … of X, H, C and the weights and bias are W, U, B:
    the specification's array at the element 256·t rows further down. -/
theorem hidden_of_rows (X H C : S8192x1024.Idx → EReal) (W U : S1024x4096.Idx → EReal) (B : S4096.Idx → EReal)
    (xb hb cb : Vec Ideal S256x1024 .f32) (w u : Vec Ideal S1024x4096 .bf16) (b : Vec Ideal S1x4096 .f32) (t : Fin cfg0.N)
    (hx : ∀ (p : Fin 256) (k : Fin 1024), xb (ix2 p k) = X (ix2 (rowOf t p) k))
    (hh : ∀ (p : Fin 256) (k : Fin 1024), hb (ix2 p k) = H (ix2 (rowOf t p) k))
    (hc : ∀ (p : Fin 256) (k : Fin 1024), cb (ix2 p k) = C (ix2 (rowOf t p) k))
    (hw : w = W) (hu : u = U) (hbias : ∀ n : Fin 4096, b (ix2 (0 : Fin 1) n) = B (ix1 n))
    (y : S256x1024.Idx) (i : S8192x1024.Idx) (hi0 : (i 0).val = 256 * t.val + (y 0).val) (hi1 : (i 1).val = (y 1).val) :
    k0_pay3 xb hb w u b cb y = hiddenArr X H C W U B i := by
  obtain ⟨p, q, rfl⟩ : ∃ (p : Fin 256) (q : Fin 1024), y = ix2 p q := ⟨y 0, y 1, eq_ix2 y⟩
  obtain ⟨r, q', rfl⟩ : ∃ (r : Fin 8192) (q' : Fin 1024), i = ix2 r q' := ⟨i 0, i 1, eq_ix2 i⟩
  obtain rfl : r = rowOf t p := Fin.ext hi0
  obtain rfl : q' = q := Fin.ext hi1
  subst hw hu
  rw [hidden_tile_apply, hiddenArr_apply]
  simp only [hx, hh, hc, hbias]

theorem cell_of_rows (X H C : S8192x1024.Idx → EReal) (W U : S1024x4096.Idx → EReal) (B : S4096.Idx → EReal)
    (xb hb cb : Vec Ideal S256x1024 .f32) (w u : Vec Ideal S1024x4096 .bf16) (b : Vec Ideal S1x4096 .f32) (t : Fin cfg0.N)
    (hx : ∀ (p : Fin 256) (k : Fin 1024), xb (ix2 p k) = X (ix2 (rowOf t p) k))
    (hh : ∀ (p : Fin 256) (k : Fin 1024), hb (ix2 p k) = H (ix2 (rowOf t p) k))
    (hc : ∀ (p : Fin 256) (k : Fin 1024), cb (ix2 p k) = C (ix2 (rowOf t p) k))
    (hw : w = W) (hu : u = U) (hbias : ∀ n : Fin 4096, b (ix2 (0 : Fin 1) n) = B (ix1 n))
    (y : S256x1024.Idx) (i : S8192x1024.Idx) (hi0 : (i 0).val = 256 * t.val + (y 0).val) (hi1 : (i 1).val = (y 1).val) :
    k0_pay2 xb hb w u b cb y = cellArr X H C W U B i := by
  obtain ⟨p, q, rfl⟩ : ∃ (p : Fin 256) (q : Fin 1024), y = ix2 p q := ⟨y 0, y 1, eq_ix2 y⟩
  obtain ⟨r, q', rfl⟩ : ∃ (r : Fin 8192) (q' : Fin 1024), i = ix2 r q' := ⟨i 0, i 1, eq_ix2 i⟩
  obtain rfl : r = rowOf t p := Fin.ext hi0
  obtain rfl : q' = q := Fin.ext hi1
  subst hw hu
  rw [cell_tile_apply, cellArr_apply]
  simp only [hx, hh, hc, hbias]

/-! What tile t writes back is block t of the result. -/
theorem hidden_written (c : Dev nD) (t : Fin cfg0.N) :
    (dats m 0 c).flushed 6 t = ((cfg0.win 6).blk t).view.read (Elt Ideal) (hiddenOf m c) := by
  obtain ⟨-, -, -, -, -, -, -, -, -, -, -, -, e60, e61, e70, e71⟩ := tile_index t
  show (cfg0.win 6).cut (grid0.coords t) ((dats m 0 c).after 6 t) = _
  rw [after_6]
  unfold hiddenTile
  rw [View.canon_unit_zero origin]
  simp only [View.ld_unit_zero (S := S256x1024) origin, View.ld_unit_zero (S := S1024x4096) origin, View.ld_unit_zero (S := S1x4096) origin]
  funext j
  refine hidden_of_rows (m ((c.tc : Thread nD τ).loc main_arg0)) (m ((c.tc : Thread nD τ).loc main_arg1)) (m ((c.tc : Thread nD τ).loc main_arg2))
    (joinedW m c) (joinedU m c) (joinedB m c)
    (blockAt m c 0 t) (blockAt m c 1 t) (blockAt m c 2 t) (blockAt m c 3 t) (blockAt m c 4 t) (blockAt m c 5 t) t
    (rows_0 m c t) (rows_1 m c t) (rows_2 m c t) ((whole_3 m c t).trans (entry_W m c)) ((whole_4 m c t).trans (entry_U m c))
    (fun n => (congrFun (whole_5 m c t) (ix2 (0 : Fin 1) n)).trans (entry_b m c n)) j (((cfg0.win 6).blk t).view.emb j) ?_ ?_
  · show win0_6.index t (0 : Fin 2) * 256 + 1 * (j 0).val = 256 * t.val + (j 0).val; rw [e60]; omega
  · show win0_6.index t (1 : Fin 2) * 1024 + 1 * (j 1).val = (j 1).val; rw [e61]; omega

theorem cell_written (c : Dev nD) (t : Fin cfg0.N) :
    (dats m 0 c).flushed 7 t = ((cfg0.win 7).blk t).view.read (Elt Ideal) (cellOf m c) := by
  obtain ⟨-, -, -, -, -, -, -, -, -, -, -, -, e60, e61, e70, e71⟩ := tile_index t
  show (cfg0.win 7).cut (grid0.coords t) ((dats m 0 c).after 7 t) = _
  rw [after_7]
  unfold cellTile
  rw [View.canon_unit_zero origin]
  simp only [View.ld_unit_zero (S := S256x1024) origin, View.ld_unit_zero (S := S1024x4096) origin, View.ld_unit_zero (S := S1x4096) origin]
  funext j
  refine cell_of_rows (m ((c.tc : Thread nD τ).loc main_arg0)) (m ((c.tc : Thread nD τ).loc main_arg1)) (m ((c.tc : Thread nD τ).loc main_arg2))
    (joinedW m c) (joinedU m c) (joinedB m c)
    (blockAt m c 0 t) (blockAt m c 1 t) (blockAt m c 2 t) (blockAt m c 3 t) (blockAt m c 4 t) (blockAt m c 5 t) t
    (rows_0 m c t) (rows_1 m c t) (rows_2 m c t) ((whole_3 m c t).trans (entry_W m c)) ((whole_4 m c t).trans (entry_U m c))
    (fun n => (congrFun (whole_5 m c t) (ix2 (0 : Fin 1) n)).trans (entry_b m c n)) j (((cfg0.win 7).blk t).view.emb j) ?_ ?_
  · show win0_7.index t (0 : Fin 2) * 256 + 1 * (j 0).val = 256 * t.val + (j 0).val; rw [e70]; omega
  · show win0_7.index t (1 : Fin 2) * 1024 + 1 * (j 1).val = (j 1).val; rw [e71]; omega

/-! ## The tiles cover the result arrays -/
theorem mem_tile_6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Every element of the result array lies in the tile of its row's block of 256. -/
theorem tiles_cover_6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, -, -, e60, e61, e70, e71⟩ := tile_index t
  refine ⟨t, flush0_6 t, ?_⟩
  rw [mem_tile_6]
  intro a
  match a with
  | ⟨0, _⟩ => show win0_6.index t (0 : Fin 2) * 256 ≤ (i 0).val ∧ (i 0).val < win0_6.index t (0 : Fin 2) * 256 + 256; rw [e60]; omega
  | ⟨1, _⟩ => show win0_6.index t (1 : Fin 2) * 1024 ≤ (i 1).val ∧ (i 1).val < win0_6.index t (1 : Fin 2) * 1024 + 1024; rw [e61]; omega

theorem mem_tile_7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Every element of the result array lies in the tile of its row's block of 256. -/
theorem tiles_cover_7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, -, -, e60, e61, e70, e71⟩ := tile_index t
  refine ⟨t, flush0_7 t, ?_⟩
  rw [mem_tile_7]
  intro a
  match a with
  | ⟨0, _⟩ => show win0_7.index t (0 : Fin 2) * 256 ≤ (i 0).val ∧ (i 0).val < win0_7.index t (0 : Fin 2) * 256 + 256; rw [e70]; omega
  | ⟨1, _⟩ => show win0_7.index t (1 : Fin 2) * 1024 ≤ (i 1).val ∧ (i 1).val < win0_7.index t (1 : Fin 2) * 1024 + 1024; rw [e71]; omega

theorem hidden_final (c : Dev nD) : (dats m 0 c).arrAt 6 cfg0.N = hiddenOf m c :=
  (dats m 0 c).arrAt_eq_of_cover 6 (hiddenOf m c) (fun t _ => hidden_written m c t) tiles_cover_6

theorem cell_final (c : Dev nD) : (dats m 0 c).arrAt 7 cfg0.N = cellOf m c :=
  (dats m 0 c).arrAt_eq_of_cover 7 (cellOf m c) (fun t _ => cell_written m c t) tiles_cover_7

/-! ## The run -/

/-- Every weakly fair execution of the idealized kernel terminates with the hidden-state result at the specification's
    new hidden state, the cell-state result at its new cell state, and the fifteen arguments unchanged. -/
theorem run : θ_run defs (onTc (τ := τ) (main (F := Ideal))) ⟨m, fun _ => 0, ρ⟩ fun r => ∀ c : Dev nD,
      r.2.mem ((c.tc : Thread nD τ).loc main_v6_0) = hiddenOf m c
      ∧ r.2.mem ((c.tc : Thread nD τ).loc main_v6_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (hidden_final m c), ((h c).1 7).trans (cell_final m c),
      kept_of_post m (dats m) (arrays_eq m) r h c⟩)
    (run_main m ρ)

end Cert.KernelIdeal.CellArrays

end
-- ==== Proof.RefSide.lean ====
/-
  The reference's two results read at one element, over the extended reals. It multiplies x and h by the joined weight
  matrices on the host, adds the two products and the joined bias broadcast along the rows, slices the four gates'
  column blocks, and spells the logistic function as 1 / (1 + e^(−z)) with the literal 1.0: element (r, q) of its cell
  state and of its hidden state are the specification's, of row r of x and of h, the old cell state at (r, q), the
  joined weights and the joined bias.
-/
import proofs.«133312_j79645873537420_1_alg».proof.Proof.Gen.ReferenceIdeal.Read
import proofs.«133312_j79645873537420_1_alg».proof.Proof.CellSpec

noncomputable section

namespace Cert.RefSide

open Cert.ReferenceIdeal Cert.ReferenceIdeal.Read Cert.CellSpec Cert.LibSpelledLogistic
open Idealize.ShloMosaic Idealize.ShloMosaic.ValueIdx

variable (x0 x1 x2 : (⟨S8192x1024, .f32⟩ : BufTy).Contents (Elt Ideal))
    (x3 x4 : (⟨S1024x1024, .f32⟩ : BufTy).Contents (Elt Ideal)) (x5 : (⟨S1024, .f32⟩ : BufTy).Contents (Elt Ideal))
    (x6 x7 : (⟨S1024x1024, .f32⟩ : BufTy).Contents (Elt Ideal)) (x8 : (⟨S1024, .f32⟩ : BufTy).Contents (Elt Ideal))
    (x9 x10 : (⟨S1024x1024, .f32⟩ : BufTy).Contents (Elt Ideal)) (x11 : (⟨S1024, .f32⟩ : BufTy).Contents (Elt Ideal))
    (x12 x13 : (⟨S1024x1024, .f32⟩ : BufTy).Contents (Elt Ideal)) (x14 : (⟨S1024, .f32⟩ : BufTy).Contents (Elt Ideal))

/-! The operand indices the reference's stages read at, for an element given by its two coordinates. -/
theorem lhs_of_x (r : Fin 8192) (n : Fin 4096) (k : Fin 1024) : lidx_main_v3 (ix2 r n) k = ix2 r k :=
  funext fun a => Fin.ext (by match a with | ⟨0, _⟩ => rfl | ⟨1, _⟩ => rfl)
theorem rhs_of_x (r : Fin 8192) (n : Fin 4096) (k : Fin 1024) : ridx_main_v3 (ix2 r n) k = ix2 k n :=
  funext fun a => Fin.ext (by match a with | ⟨0, _⟩ => rfl | ⟨1, _⟩ => rfl)
theorem lhs_of_h (r : Fin 8192) (n : Fin 4096) (k : Fin 1024) : lidx_main_v4 (ix2 r n) k = ix2 r k :=
  funext fun a => Fin.ext (by match a with | ⟨0, _⟩ => rfl | ⟨1, _⟩ => rfl)
theorem rhs_of_h (r : Fin 8192) (n : Fin 4096) (k : Fin 1024) : ridx_main_v4 (ix2 r n) k = ix2 k n :=
  funext fun a => Fin.ext (by match a with | ⟨0, _⟩ => rfl | ⟨1, _⟩ => rfl)
theorem bias_of (r : Fin 8192) (n : Fin 4096) : idx_main_v6 (idx_main_v7 (ix2 r n)) = ix1 n :=
  funext fun a => Fin.ext (by match a with | ⟨0, _⟩ => rfl)
theorem inputBlock_of (r : Fin 8192) (q : Fin 1024) : idx_main_v9 (ix2 r q) = ix2 r (gateCol 0 q) :=
  funext fun a => Fin.ext (by
    match a with
    | ⟨0, _⟩ => rfl
    | ⟨1, _⟩ => show q.val = (gateCol 0 q).val; have := inputCol_val q; omega)
theorem forgetBlock_of (r : Fin 8192) (q : Fin 1024) : idx_main_v10 (ix2 r q) = ix2 r (gateCol 1 q) :=
  funext fun a => Fin.ext (by
    match a with
    | ⟨0, _⟩ => rfl
    | ⟨1, _⟩ => exact (forgetCol_val q).symm)
theorem outputBlock_of (r : Fin 8192) (q : Fin 1024) : idx_main_v11 (ix2 r q) = ix2 r (gateCol 2 q) :=
  funext fun a => Fin.ext (by
    match a with
    | ⟨0, _⟩ => rfl
    | ⟨1, _⟩ => exact (outputCol_val q).symm)
theorem candidateBlock_of (r : Fin 8192) (q : Fin 1024) : idx_main_v12 (ix2 r q) = ix2 r (gateCol 3 q) :=
  funext fun a => Fin.ext (by
    match a with
    | ⟨0, _⟩ => rfl
    | ⟨1, _⟩ => exact (candidateCol_val q).symm)

/-- The pre-activations at element (r, n). -/
theorem preact_apply (r : Fin 8192) (n : Fin 4096) :
    val_main_v8 (F := Ideal) x0 x1 x3 x4 x5 x6 x7 x8 x9 x10 x11 x12 x13 x14 (ix2 r n)
      = preAct (fun k => x0 (ix2 r k)) (fun k => x1 (ix2 r k)) (val_main_v0 (F := Ideal) x3 x6 x9 x12)
          (val_main_v1 (F := Ideal) x4 x7 x10 x13) (fun n => val_main_v2 (F := Ideal) x5 x8 x11 x14 (ix1 n)) n := by
  rw [val_main_v8_apply, val_main_v5_apply, val_main_v3_apply, val_main_v4_apply, val_main_v7_apply, val_main_v6_apply]
  simp only [lhs_of_x, rhs_of_x, lhs_of_h, rhs_of_h, bias_of]
  rfl

/-- The cell state at element (r, q): each gate's spelled quotient is the logistic function of its pre-activation. -/
theorem cell_apply (r : Fin 8192) (q : Fin 1024) :
    val_main_v34 (F := Ideal) x0 x1 x2 x3 x4 x5 x6 x7 x8 x9 x10 x11 x12 x13 x14 (ix2 r q) = cellAt (fun k => x0 (ix2 r k)) (fun k => x1 (ix2 r k)) (x2 (ix2 r q)) (val_main_v0 (F := Ideal) x3 x6 x9 x12) (val_main_v1 (F := Ideal) x4 x7 x10 x13) (fun n => val_main_v2 (F := Ideal) x5 x8 x11 x14 (ix1 n)) q := by
  rw [val_main_v34_apply, val_main_v32_apply, val_main_v33_apply, val_main_v24_apply, val_main_v18_apply, val_main_v31_apply,
    val_main_v23_apply, val_main_v22_apply, val_main_v17_apply, val_main_v16_apply, val_main_v21_apply, val_main_v20_apply,
    val_main_v15_apply, val_main_v14_apply, val_main_v19_apply, val_main_v13_apply, val_main_v12_apply, val_main_v10_apply,
    val_main_v9_apply, val_main_cst_2_apply, val_main_cst_1_apply, val_main_cst_0_apply, val_main_cst_apply,
    inputBlock_of, forgetBlock_of, candidateBlock_of, preact_apply, preact_apply, preact_apply]
  unfold cellAt
  simp only [Ideal.addf_def, Ideal.mulf_def, Ideal.hostDivf_def, Ideal.ofBits_def, Ideal.hostUnary_exp_def, Ideal.hostNegf_def,
    Ideal.negf_def, Ideal.hostUnary_tanh_def, spelled_logistic]

/-- The hidden state at element (r, q). -/
theorem hidden_apply (r : Fin 8192) (q : Fin 1024) :
    val_main_v36 (F := Ideal) x0 x1 x2 x3 x4 x5 x6 x7 x8 x9 x10 x11 x12 x13 x14 (ix2 r q) = hiddenAt (fun k => x0 (ix2 r k)) (fun k => x1 (ix2 r k)) (x2 (ix2 r q)) (val_main_v0 (F := Ideal) x3 x6 x9 x12) (val_main_v1 (F := Ideal) x4 x7 x10 x13) (fun n => val_main_v2 (F := Ideal) x5 x8 x11 x14 (ix1 n)) q := by
  rw [val_main_v36_apply, val_main_v35_apply, val_main_v30_apply, val_main_v29_apply, val_main_v28_apply, val_main_v27_apply,
    val_main_v26_apply, val_main_v25_apply, val_main_v11_apply, val_main_cst_4_apply, val_main_cst_3_apply,
    outputBlock_of, preact_apply, cell_apply]
  unfold hiddenAt
  simp only [Ideal.addf_def, Ideal.mulf_def, Ideal.hostDivf_def, Ideal.ofBits_def, Ideal.hostUnary_exp_def, Ideal.hostNegf_def,
    Ideal.negf_def, Ideal.hostUnary_tanh_def, spelled_logistic]

/-- The reference's cell state as a whole array. -/
theorem cell_eq :
    val_main_v34 (F := Ideal) x0 x1 x2 x3 x4 x5 x6 x7 x8 x9 x10 x11 x12 x13 x14
      = cellArr x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 8192) (q : Fin 1024), i = ix2 r q := ⟨i 0, i 1, eq_ix2 i⟩
  rw [cell_apply, cellArr_apply]

/-- The reference's hidden state as a whole array. -/
theorem hidden_eq :
    val_main_v36 (F := Ideal) x0 x1 x2 x3 x4 x5 x6 x7 x8 x9 x10 x11 x12 x13 x14
      = hiddenArr x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 8192) (q : Fin 1024), i = ix2 r q := ⟨i 0, i 1, eq_ix2 i⟩
  rw [hidden_apply, hiddenArr_apply]

end Cert.RefSide

end
-- ==== Proof.lean ====
/-
  One step of an LSTM cell over a batch of 8192 rows, 1024 inputs and 1024 hidden units: a kernel that walks the batch
  in 32 tiles of 256 rows against a reference that works on the whole batch at once.

  Both compute, for batch row r and hidden unit q, the pre-activations
      z(n) = Σ_k x(r,k)·W(k,n) + Σ_k h(r,k)·U(k,n) + b(n)
  over the four gates' weights and biases laid side by side (gate g owns columns 1024·g … 1024·g + 1023), then
      c' = σ(z(1024+q))·c(r,q) + σ(z(q))·tanh(z(3072+q)),    h' = σ(z(2048+q))·tanh(c').
  They differ only in layout and spelling: the kernel narrows its matrix operands (the identity on extended reals),
  multiplies a tile at a time into a zero accumulator (a plain sum over the contracted entries, as the host's product
  is), lays the bias out as one row and broadcasts it down the tile, and applies the logistic function as one
  operation, where the reference spells it 1 / (1 + e^(−z)) with the literal 1.0, which denotes one. The sums are added
  in the same order on both sides, so no law of real arithmetic is needed and the inputs' finiteness is never used.

  The frames: the kernel, at word level and idealized, runs its six host operations and its 32 tiles to the end and
  writes no argument array; the reference is a straight line of host operations. The kernel's idealization rewrites
  nothing, so there is nothing to preserve.
-/
import proofs.«133312_j79645873537420_1_alg».proof.Defs
import proofs.«133312_j79645873537420_1_alg».proof.Proof.Gen.Kernel
import proofs.«133312_j79645873537420_1_alg».proof.Proof.Gen.KernelIdeal
import proofs.«133312_j79645873537420_1_alg».proof.Proof.Gen.ReferenceIdeal
import proofs.«133312_j79645873537420_1_alg».proof.Proof.Gen.Pre_finite_inputs
import proofs.«133312_j79645873537420_1_alg».proof.Proof.CellFrameBits
import proofs.«133312_j79645873537420_1_alg».proof.Proof.CellFrameIdeal
import proofs.«133312_j79645873537420_1_alg».proof.Proof.CellArrays
import proofs.«133312_j79645873537420_1_alg».proof.Proof.RefSide
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.CellFrame.args_kept (F := Bits) m ρ

/-- So does the idealized kernel. -/
theorem frame_kernel_ideal : Cert.frame_KernelIdeal := fun m ρ _ => Cert.KernelIdeal.CellFrame.args_kept (F := Ideal) m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, both programs end with the specification's new hidden state and new cell
    state of those arguments: the kernel's arrays tile by tile, the reference's stage by stage. -/
theorem algebraic : Cert.algebraic_KernelIdeal_ReferenceIdeal := by
  intro m ρ m' ρ' _ hagree
  refine ⟨fun c => Cert.KernelIdeal.CellArrays.hiddenOf m c, fun c => Cert.KernelIdeal.CellArrays.cellOf m c,
    Cert.KernelIdeal.CellArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.RefSide.hidden_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v34_eq, Cert.RefSide.cell_eq, a0, a1, a2, a3, a4, a5, a6, a7, a8, a9, a10, a11, a12, a13, a14]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
